-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S192x40 .f32) (main_arg9 : FVec F S40 .f32) (main_v33 : IVec S_ 1) : IVec S_ 1 :=
  let main_v34 : FVec F S192x40 .f32 := Host.absf main_arg8
  let main_cst_12 : FVec F S_ .f32 := constant S_ .f32 0x7F800000#32
  let main_v35 : FVec F S192x40 .f32 := broadcastInDim S192x40 ![] bcast_S_S192x40 main_cst_12
  let main_v36 : IVec S192x40 1 := cmpf .olt main_v34 main_v35
  let main_c_13 : IVec S_ 1 := constantI S_ 1 1#1
  let main_v37 : IVec S_ 1 := (fun x v => Host.reduce IntOp.andi x v reducesTo_S192x40_S_d0_1 h_S_) main_v36 main_c_13
  let main_v38 : IVec S_ 1 := andi main_v33 main_v37
  let main_v39 : FVec F S40 .f32 := Host.absf main_arg9
  let main_cst_14 : FVec F S_ .f32 := constant S_ .f32 0x7F800000#32
  let main_v40 : FVec F S40 .f32 := broadcastInDim S40 ![] bcast_S_S40 main_cst_14
  let main_v41 : IVec S40 1 := cmpf .olt main_v39 main_v40
  let main_c_15 : IVec S_ 1 := constantI S_ 1 1#1
  let main_v42 : IVec S_ 1 := (fun x v => Host.reduce IntOp.andi x v reducesTo_S40_S_d0 h_S_) main_v41 main_c_15
  let main_v43 : IVec S_ 1 := andi main_v38 main_v42
  main_v43

def fn_part1 {F : FTy → Type} [FloatOps F] (main_arg5 : FVec F S64 .f32) (main_arg6 : FVec F S64x64 .f32) (main_arg7 : FVec F S64 .f32) (main_arg8 : FVec F S192x40 .f32) (main_arg9 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S192x40 .f32) (main_arg9 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x40 : Shape := ⟨2, ![1, 40]⟩
abbrev S100000x40 : Shape := ⟨2, ![100000, 40]⟩
abbrev S2000x64 : Shape := ⟨2, ![2000, 64]⟩
abbrev S2000x40 : Shape := ⟨2, ![2000, 40]⟩
abbrev S2000x192 : Shape := ⟨2, ![2000, 192]⟩

abbrev nBuf : Space → Nat
  | .hbm => 90
  | .vmem => 16
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x1, .f32⟩
  | .hbm, ⟨63, _⟩ => ⟨S1700000x64, .f32⟩
  | .hbm, ⟨64, _⟩ => ⟨S1700000x64, .f32⟩
  | .hbm, ⟨65, _⟩ => ⟨S_, .f32⟩
  | .hbm, ⟨66, _⟩ => ⟨S100000x64, .f32⟩
  | .hbm, ⟨67, _⟩ => ⟨S1700000x1, .i32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S1x64, .f32⟩
  | .hbm, ⟨87, _⟩ => ⟨S1x64, .f32⟩
  | .hbm, ⟨88, _⟩ => ⟨S1x40, .f32⟩
  | .hbm, ⟨89, _⟩ => ⟨S100000x40, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S192x40, .f32⟩
  | .local _ .vmem, ⟨13, _⟩ => ⟨S1x40, .f32⟩
  | .local _ .vmem, ⟨14, _⟩ => ⟨S2000x40, .f32⟩
  | .local _ .vmem, ⟨15, _⟩ => ⟨S2000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S192x40 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x40 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2000x40 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S40_S1x40 : S40.ShapeCasts S1x40
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  concatenates_S2000x64_S2000x64_S2000x64_S2000x192_d1 : Shape.Concatenates [S2000x64, S2000x64, S2000x64] S2000x192 1
  inb_S192x40_S192x40_0_0 : ∀ a, (![0, 0] : Fin 2 → Nat) a + S192x40.size a ≤ S192x40.size a
  h_S192x40 : 0 < S192x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x64_S2000x64_1_0_0_1_n_n_wf : DotDims.WF S2000x64 S64x64 S2000x64 [1] [0] [0] [1] [] []
  dot_S2000x192_S192x40_S2000x40_1_0_0_1_n_n_wf : DotDims.WF S2000x192 S192x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S192x40.size a ≤ S192x40.size a
  hwx0_9 : ∀ i : grid0.Coords, EltTy.bits .f32 = 32 ∨ (Rect.block (s := S192x40) S192x40.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x40.size a ≤ S1x40.size a
  hwx0_10 : ∀ i : grid0.Coords, EltTy.bits .f32 = 32 ∨ (Rect.block (s := S1x40) S1x40.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2000x40.size a ≤ S100000x40.size a
  hwx0_11 : ∀ i : grid0.Coords, EltTy.bits .f32 = 32 ∨ (Rect.block (s := S100000x40) S2000x40.size (cc0_transform_11 i) (hinb0_11 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x192_S192x40_S2000x40_1_0_0_1_n_n : DotDims S2000x192 S192x40 S2000x40 where
  lhsContracting := [1]
  rhsContracting := [0]
  lhsNonContracting := [0]
  rhsNonContracting := [1]
  lhsBatch := []
  rhsBatch := []
  wf := dot_S2000x192_S192x40_S2000x40_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v59) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v60) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S192x40.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v61) S1x40.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v62) S2000x40.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S192x40 : Shape := ⟨2, ![192, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S1700000x64 : Shape := ⟨2, ![1700000, 64]⟩
abbrev S100000x192 : Shape := ⟨2, ![100000, 192]⟩
abbrev S100000x40 : Shape := ⟨2, ![100000, 40]⟩
abbrev S1x40 : Shape := ⟨2, ![1, 40]⟩

abbrev nBuf : Space → Nat
  | .hbm => 105
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S192x40, .f32⟩
  | .hbm, ⟨9, _⟩ => ⟨S40, .f32⟩
  | .hbm, ⟨10, _⟩ => ⟨S100000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .i32⟩
  | .hbm, ⟨58, _⟩ => ⟨S1700000, .i32⟩
  | .hbm, ⟨59, _⟩ => ⟨S1700000, .i1⟩
  | .hbm, ⟨60, _⟩ => ⟨S_, .i32⟩
  | .hbm, ⟨61, _⟩ => ⟨S1700000, .i32⟩
  | .hbm, ⟨62, _⟩ => ⟨S1700000, .i32⟩
  | .hbm, ⟨63, _⟩ => ⟨S1700000, .i32⟩
  | .hbm, ⟨64, _⟩ => ⟨S1700000x1, .i32⟩
  | .hbm, ⟨65, _⟩ => ⟨S1700000x64, .f32⟩
  | .hbm, ⟨66, _⟩ => ⟨S1700000x1, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S1700000, .i32⟩
  | .hbm, ⟨79, _⟩ => ⟨S1700000, .i1⟩
  | .hbm, ⟨80, _⟩ => ⟨S_, .i32⟩
  | .hbm, ⟨81, _⟩ => ⟨S1700000, .i32⟩
  | .hbm, ⟨82, _⟩ => ⟨S1700000, .i32⟩
  | .hbm, ⟨83, _⟩ => ⟨S1700000, .i32⟩
  | .hbm, ⟨84, _⟩ => ⟨S1700000x1, .i32⟩
  | .hbm, ⟨85, _⟩ => ⟨S1700000x64, .f32⟩
  | .hbm, ⟨86, _⟩ => ⟨S1700000x1, .f32⟩
  | .hbm, ⟨87, _⟩ => ⟨S1700000x64, .f32⟩
  | .hbm, ⟨88, _⟩ => ⟨S1700000x64, .f32⟩
  | .hbm, ⟨89, _⟩ => ⟨S_, .f32⟩
  | .hbm, ⟨90, _⟩ => ⟨S100000x64, .f32⟩
  | .hbm, ⟨91, _⟩ => ⟨S1700000x1, .i32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S100000x192, .f32⟩
  | .hbm, ⟨98, _⟩ => ⟨S_, .f32⟩
  | .hbm, ⟨99, _⟩ => ⟨S100000x192, .f32⟩
  | .hbm, ⟨100, _⟩ => ⟨S100000x192, .f32⟩
  | .hbm, ⟨101, _⟩ => ⟨S100000x40, .f32⟩
  | .hbm, ⟨102, _⟩ => ⟨S1x40, .f32⟩
  | .hbm, ⟨103, _⟩ => ⟨S100000x40, .f32⟩
  | .hbm, ⟨104, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_10 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_call1_cst : Ref sig .tc := ⟨.hbm, 98, rfl⟩
abbrev main_call1_v0 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S_S100000x192 : S_.BroadcastsInDim S100000x192 (![] : Fin 0 → Fin S100000x192.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x192_S192x40_S100000x40_1_0_0_1_n_n_wf : DotDims.WF S100000x192 S192x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x192_S192x40_S100000x40_1_0_0_1_n_n : DotDims S100000x192 S192x40 S100000x40 where
  lhsContracting := [1]
  rhsContracting := [0]
  lhsNonContracting := [0]
  rhsNonContracting := [1]
  lhsBatch := []
  rhsBatch := []
  wf := dot_S100000x192_S192x40_S100000x40_1_0_0_1_n_n_wf

class Facts : Prop extends Facts₀ where

variable [Facts]
-- ==== Proof.MixHead.lean ====
/-
  The dense head of a three-hop graph mixing layer, for ONE node.

  A node carries three feature rows of 64 entries: its own features `x`, and its features propagated one and two hops
  through the normalised adjacency, `h1` and `h2`. Each row is projected by its own 64 × 64 matrix with a bias,
  the three results are laid side by side into 192 columns, rectified against a floor `z`, and projected once more by a
  192 × 40 matrix with a bias:

      head j = (∑ k < 192, max (hidden k) z · Wl k j) + bl j,
      hidden k = (row_h · W_h)(k mod 64) + b_h (k mod 64),   h = k / 64.

  Nothing here mentions a node's position: a block of rows and the whole array are the same function row by row, and a
  sum over a contracted axis is a `Finset` sum, whose order no program can change. This module imports no program.
-/
import Idealize.ShloMosaic.PureOps.Ideal
import Idealize.ShloMosaic.PureOps.Ideal.Laws
import Idealize.ShloMosaic.Lib.ValueIdx
import Idealize.ShloMosaic.Lib.Pipeline.Value

noncomputable section

namespace Cert.MixHead

open Idealize.ShloMosaic Idealize.ShloMosaic.ValueIdx

/-- One hop's projection of a node's feature row, column `c`: `(a · W) c + b c`. -/
def proj (a : Fin 64 → EReal) (W : Fin 64 → Fin 64 → EReal) (b : Fin 64 → EReal) (c : Fin 64) : EReal :=
  (∑ q : Fin 64, a q * W q c) + b c

/-- The three projections side by side: columns 0–63 are hop 0's, 64–127 hop 1's, 128–191 hop 2's. -/
def hidden (x h1 h2 : Fin 64 → EReal) (W0 W1 W2 : Fin 64 → Fin 64 → EReal) (b0 b1 b2 : Fin 64 → EReal)
    (k : Fin 192) : EReal :=
  if e1 : k.val < 64 then proj x W0 b0 ⟨k.val, e1⟩
  else if e2 : k.val < 128 then proj h1 W1 b1 ⟨k.val - 64, by omega⟩
  else proj h2 W2 b2 ⟨k.val - 128, by omega⟩

/-- The head at output column `j`: the hidden row rectified against `z`, times `Wl`, plus `bl`. -/
def headRow (z : EReal) (x h1 h2 : Fin 64 → EReal) (W0 W1 W2 : Fin 64 → Fin 64 → EReal) (b0 b1 b2 : Fin 64 → EReal)
    (Wl : Fin 192 → Fin 40 → EReal) (bl : Fin 40 → EReal) (j : Fin 40) : EReal :=
  (∑ k : Fin 192, max (hidden x h1 h2 W0 W1 W2 b0 b1 b2 k) z * Wl k j) + bl j

/-- The head over whole arrays of 100000 nodes: row `i 0` of the three feature arrays through `headRow`, at column `i 1`.
    The bias arrays are plain 64- and 40-entry vectors. -/
def headArr (z : EReal) (x h1 h2 : (⟨2, ![100000, 64]⟩ : Shape).Idx → EReal)
    (W0 W1 W2 : (⟨2, ![64, 64]⟩ : Shape).Idx → EReal) (b0 b1 b2 : (⟨1, ![64]⟩ : Shape).Idx → EReal)
    (Wl : (⟨2, ![192, 40]⟩ : Shape).Idx → EReal) (bl : (⟨1, ![40]⟩ : Shape).Idx → EReal) :
    (⟨2, ![100000, 40]⟩ : Shape).Idx → EReal := fun i =>
  headRow z (fun q => x (ix2 (i 0 : Fin 100000) q)) (fun q => h1 (ix2 (i 0 : Fin 100000) q)) (fun q => h2 (ix2 (i 0 : Fin 100000) q))
    (fun q c => W0 (ix2 q c)) (fun q c => W1 (ix2 q c)) (fun q c => W2 (ix2 q c))
    (fun c => b0 (ix1 c)) (fun c => b1 (ix1 c)) (fun c => b2 (ix1 c))
    (fun k j => Wl (ix2 k j)) (fun j => bl (ix1 j)) (i 1 : Fin 40)

/-- At coordinates `(r, j)` it is `headRow` of node `r`'s rows, column `j`. -/
theorem headArr_ix2 (z : EReal) (x h1 h2 : (⟨2, ![100000, 64]⟩ : Shape).Idx → EReal)
    (W0 W1 W2 : (⟨2, ![64, 64]⟩ : Shape).Idx → EReal) (b0 b1 b2 : (⟨1, ![64]⟩ : Shape).Idx → EReal)
    (Wl : (⟨2, ![192, 40]⟩ : Shape).Idx → EReal) (bl : (⟨1, ![40]⟩ : Shape).Idx → EReal) (r : Fin 100000) (j : Fin 40) :
    headArr z x h1 h2 W0 W1 W2 b0 b1 b2 Wl bl (ix2 r j)
      = headRow z (fun q => x (ix2 r q)) (fun q => h1 (ix2 r q)) (fun q => h2 (ix2 r q))
          (fun q c => W0 (ix2 q c)) (fun q c => W1 (ix2 q c)) (fun q c => W2 (ix2 q c))
          (fun c => b0 (ix1 c)) (fun c => b1 (ix1 c)) (fun c => b2 (ix1 c))
          (fun k j => Wl (ix2 k j)) (fun j => bl (ix1 j)) j := rfl

/-- Three `R × 64` pieces joined along the columns, read at row `r`, column `k`: piece `k / 64` at column `k mod 64`. -/
theorem cat3_apply {α : Type} {R : Nat} (a b c : (⟨2, ![R, 64]⟩ : Shape).Idx → α)
    (h : Shape.Concatenates [(⟨2, ![R, 64]⟩ : Shape), ⟨2, ![R, 64]⟩, ⟨2, ![R, 64]⟩] ⟨2, ![R, 192]⟩ 1)
    (r : Fin R) (k : Fin 192) :
    concatenate (⟨2, ![R, 192]⟩ : Shape) 1 [⟨⟨2, ![R, 64]⟩, a⟩, ⟨⟨2, ![R, 64]⟩, b⟩, ⟨⟨2, ![R, 64]⟩, c⟩] h (ix2 r k)
      = if e1 : k.val < 64 then a (ix2 r ⟨k.val, e1⟩)
        else if e2 : k.val < 128 then b (ix2 r ⟨k.val - 64, by omega⟩)
        else c (ix2 r ⟨k.val - 128, by omega⟩) := by
  have hoff : ∀ (i : (⟨2, ![R, 64]⟩ : Shape).Idx) (q : Fin 64), i = ix2 r q →
      ∀ b' : Fin (⟨2, ![R, 64]⟩ : Shape).rank, b'.cast (rfl : (2 : Nat) = 2) ≠ (1 : Fin 2) →
        (i b').val = ((ix2 r k : (⟨2, ![R, 192]⟩ : Shape).Idx) (b'.cast rfl)).val := by
    intro i q hi b' hb'
    subst hi
    match b' with
    | ⟨0, _⟩ => rfl
    | ⟨1, _⟩ => exact absurd rfl hb'
  by_cases e1 : k.val < 64
  · rw [dif_pos e1]
    exact concatenate_apply_piece (t := ⟨2, ![R, 192]⟩) 1 [⟨⟨2, ![R, 64]⟩, a⟩, ⟨⟨2, ![R, 64]⟩, b⟩, ⟨⟨2, ![R, 64]⟩, c⟩] h (ix2 r k) 0 (by show 0 < 3; omega) _ a rfl rfl 0 rfl (ix2 r ⟨k.val, e1⟩)
      (hoff _ _ rfl) (by show 0 + k.val = k.val; omega)
  · rw [dif_neg e1]
    by_cases e2 : k.val < 128
    · rw [dif_pos e2]
      exact concatenate_apply_piece (t := ⟨2, ![R, 192]⟩) 1 [⟨⟨2, ![R, 64]⟩, a⟩, ⟨⟨2, ![R, 64]⟩, b⟩, ⟨⟨2, ![R, 64]⟩, c⟩] h (ix2 r k) 1 (by show 1 < 3; omega) _ b rfl rfl 64 rfl (ix2 r ⟨k.val - 64, by omega⟩)
        (hoff _ _ rfl) (by show 64 + (k.val - 64) = k.val; omega)
    · rw [dif_neg e2]
      exact concatenate_apply_piece (t := ⟨2, ![R, 192]⟩) 1 [⟨⟨2, ![R, 64]⟩, a⟩, ⟨⟨2, ![R, 64]⟩, b⟩, ⟨⟨2, ![R, 64]⟩, c⟩] h (ix2 r k) 2 (by show 2 < 3; omega) _ c rfl rfl 128 rfl (ix2 r ⟨k.val - 128, by omega⟩)
        (hoff _ _ rfl) (by show 128 + (k.val - 128) = k.val; have := k.isLt; omega)

end Cert.MixHead

end
-- ==== Proof.RefHead.lean ====
/-
  The reference's head, read at a node `r` and an output column `j`.

  After the two propagation hops the reference multiplies each of the three feature arrays (the node features and the
  two propagated arrays) by its projection matrix and adds its bias, joins the three results along the columns,
  rectifies against zero, and multiplies by the output matrix and adds the output bias. Each of these steps reads, at
  row `r`, only row `r` of its operands; a product is the sum over the contracted axis. So the result at `(r, j)` is
  `MixHead.headRow` of node `r`'s three rows. The two propagated arrays stay unopened: they are named by their stage
  functions of the node features and the edge list.
-/
import proofs.«152419_j61942018342913_1_alg».proof.Proof.RefRead
import proofs.«152419_j61942018342913_1_alg».proof.Proof.MixHead

noncomputable section

namespace Cert.ReferenceIdeal.Head

open Cert.ReferenceIdeal Cert.ReferenceIdeal.ReadP Idealize.ShloMosaic Idealize.ShloMosaic.ValueIdx Cert.MixHead

/-! ## Index maps of the reference's stages, as coordinates -/

/-- Hop 0: the node features times `W0`, plus `b0`. -/
theorem proj0_apply (x0 : (⟨S100000x64, .f32⟩ : BufTy).Contents (Elt Ideal)) (x2 : (⟨S64x64, .f32⟩ : BufTy).Contents (Elt Ideal))
    (x3 : (⟨S64, .f32⟩ : BufTy).Contents (Elt Ideal)) (r : Fin 100000) (c : Fin 64) :
    val_main_v35 (F := Ideal) x0 x2 x3 (ix2 r c)
      = proj (fun q => x0 (ix2 r q)) (fun q c => x2 (ix2 q c)) (fun c => x3 (ix1 c)) c := by
  rw [val_main_v35_apply, val_main_v32_apply, val_main_v34_apply, val_main_v33_apply]
  have el : ∀ k : Fin 64, lidx_main_v32 (ix2 r c) k = ix2 r k := fun k => funext fun a => by
    match a with | ⟨0, _⟩ => rfl | ⟨1, _⟩ => rfl
  have er : ∀ k : Fin 64, ridx_main_v32 (ix2 r c) k = ix2 k c := fun k => funext fun a => by
    match a with | ⟨0, _⟩ => rfl | ⟨1, _⟩ => rfl
  have eb : idx_main_v33 (idx_main_v34 (ix2 r c)) = ix1 c := funext fun a => by
    match a with | ⟨0, _⟩ => rfl
  simp only [el, er, eb]
  rfl

/-- Hop 1: the once-propagated features times `W1`, plus `b1`. -/
theorem proj1_apply (x0 : (⟨S100000x64, .f32⟩ : BufTy).Contents (Elt Ideal)) (x1 : (⟨S2x1600000, .i32⟩ : BufTy).Contents (Elt Ideal))
    (x4 : (⟨S64x64, .f32⟩ : BufTy).Contents (Elt Ideal)) (x5 : (⟨S64, .f32⟩ : BufTy).Contents (Elt Ideal)) (r : Fin 100000) (c : Fin 64) :
    val_main_v52 (F := Ideal) x0 x1 x4 x5 (ix2 r c)
      = proj (fun q => val_main_v48 (F := Ideal) x0 x1 (ix2 r q)) (fun q c => x4 (ix2 q c)) (fun c => x5 (ix1 c)) c := by
  rw [val_main_v52_apply, val_main_v49_apply, val_main_v51_apply, val_main_v50_apply]
  have el : ∀ k : Fin 64, lidx_main_v49 (ix2 r c) k = ix2 r k := fun k => funext fun a => by
    match a with | ⟨0, _⟩ => rfl | ⟨1, _⟩ => rfl
  have er : ∀ k : Fin 64, ridx_main_v49 (ix2 r c) k = ix2 k c := fun k => funext fun a => by
    match a with | ⟨0, _⟩ => rfl | ⟨1, _⟩ => rfl
  have eb : idx_main_v50 (idx_main_v51 (ix2 r c)) = ix1 c := funext fun a => by
    match a with | ⟨0, _⟩ => rfl
  simp only [el, er, eb]
  rfl

/-- Hop 2: the twice-propagated features times `W2`, plus `b2`. -/
theorem proj2_apply (x0 : (⟨S100000x64, .f32⟩ : BufTy).Contents (Elt Ideal)) (x1 : (⟨S2x1600000, .i32⟩ : BufTy).Contents (Elt Ideal))
    (x6 : (⟨S64x64, .f32⟩ : BufTy).Contents (Elt Ideal)) (x7 : (⟨S64, .f32⟩ : BufTy).Contents (Elt Ideal)) (r : Fin 100000) (c : Fin 64) :
    val_main_v69 (F := Ideal) x0 x1 x6 x7 (ix2 r c)
      = proj (fun q => val_main_v65 (F := Ideal) x0 x1 (ix2 r q)) (fun q c => x6 (ix2 q c)) (fun c => x7 (ix1 c)) c := by
  rw [val_main_v69_apply, val_main_v66_apply, val_main_v68_apply, val_main_v67_apply]
  have el : ∀ k : Fin 64, lidx_main_v66 (ix2 r c) k = ix2 r k := fun k => funext fun a => by
    match a with | ⟨0, _⟩ => rfl | ⟨1, _⟩ => rfl
  have er : ∀ k : Fin 64, ridx_main_v66 (ix2 r c) k = ix2 k c := fun k => funext fun a => by
    match a with | ⟨0, _⟩ => rfl | ⟨1, _⟩ => rfl
  have eb : idx_main_v67 (idx_main_v68 (ix2 r c)) = ix1 c := funext fun a => by
    match a with | ⟨0, _⟩ => rfl
  simp only [el, er, eb]
  rfl

/-! ## The joined, rectified hidden array and the result -/

variable (x0 : (⟨S100000x64, .f32⟩ : BufTy).Contents (Elt Ideal)) (x1 : (⟨S2x1600000, .i32⟩ : BufTy).Contents (Elt Ideal))
  (x2 : (⟨S64x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))
  (x8 : (⟨S192x40, .f32⟩ : BufTy).Contents (Elt Ideal)) (x9 : (⟨S40, .f32⟩ : BufTy).Contents (Elt Ideal))

/-- Node `r`'s hidden row as the reference's operands give it. -/
abbrev hiddenAt (r : Fin 100000) (k : Fin 192) : EReal :=
  hidden (fun q => x0 (ix2 r q)) (fun q => val_main_v48 (F := Ideal) x0 x1 (ix2 r q)) (fun q => val_main_v65 (F := Ideal) x0 x1 (ix2 r q))
    (fun q c => x2 (ix2 q c)) (fun q c => x4 (ix2 q c)) (fun q c => x6 (ix2 q c))
    (fun c => x3 (ix1 c)) (fun c => x5 (ix1 c)) (fun c => x7 (ix1 c)) k

/-- The three projections joined along the columns and floored at the float zero, at `(r, k)`: by the column's range. -/
theorem hidden_apply (r : Fin 100000) (k : Fin 192) :
    val_main_v71 (F := Ideal) x0 x1 x2 x3 x4 x5 x6 x7 (ix2 r k)
      = max (hiddenAt x0 x1 x2 x3 x4 x5 x6 x7 r k) (Ideal.ofBits .f32 0x00000000#32) := by
  rw [val_main_v71_apply, val_main_call1_v0_apply, val_main_call1_cst_apply]
  unfold val_main_v70
  rw [cat3_apply]
  unfold hiddenAt Cert.MixHead.hidden
  by_cases e1 : k.val < 64
  · rw [dif_pos e1, dif_pos e1, proj0_apply]; rfl
  · rw [dif_neg e1, dif_neg e1]
    by_cases e2 : k.val < 128
    · rw [dif_pos e2, dif_pos e2, proj1_apply]; rfl
    · rw [dif_neg e2, dif_neg e2, proj2_apply]; rfl

/-- THE REFERENCE'S RESULT at node `r`, output column `j`: the head of node `r`'s three rows. -/
theorem result_apply (r : Fin 100000) (j : Fin 40) :
    val_main_v75 (F := Ideal) x0 x1 x2 x3 x4 x5 x6 x7 x8 x9 (ix2 r j)
      = headRow (Ideal.ofBits .f32 0x00000000#32)
          (fun q => x0 (ix2 r q)) (fun q => val_main_v48 (F := Ideal) x0 x1 (ix2 r q)) (fun q => val_main_v65 (F := Ideal) x0 x1 (ix2 r q))
          (fun q c => x2 (ix2 q c)) (fun q c => x4 (ix2 q c)) (fun q c => x6 (ix2 q c))
          (fun c => x3 (ix1 c)) (fun c => x5 (ix1 c)) (fun c => x7 (ix1 c))
          (fun k j => x8 (ix2 k j)) (fun j => x9 (ix1 j)) j := by
  rw [val_main_v75_apply, val_main_v72_apply, val_main_v74_apply, val_main_v73_apply]
  have el : ∀ k : Fin 192, lidx_main_v72 (ix2 r j) k = ix2 r k := fun k => funext fun a => by
    match a with | ⟨0, _⟩ => rfl | ⟨1, _⟩ => rfl
  have er : ∀ k : Fin 192, ridx_main_v72 (ix2 r j) k = ix2 k j := fun k => funext fun a => by
    match a with | ⟨0, _⟩ => rfl | ⟨1, _⟩ => rfl
  have eb : idx_main_v73 (idx_main_v74 (ix2 r j)) = ix1 j := funext fun a => by
    match a with | ⟨0, _⟩ => rfl
  simp only [el, er, eb, hidden_apply]
  rfl

/-- THE REFERENCE'S RESULT ARRAY is the whole-array head of the node features, the two propagated arrays, the
    weights and the biases. -/
theorem result_eq :
    val_main_v75 (F := Ideal) x0 x1 x2 x3 x4 x5 x6 x7 x8 x9
      = headArr (Ideal.ofBits .f32 0x00000000#32) x0 (val_main_v48 (F := Ideal) x0 x1) (val_main_v65 (F := Ideal) x0 x1)
          x2 x4 x6 x3 x5 x7 x8 x9 := by
  funext i
  obtain ⟨r, j, rfl⟩ : ∃ (r : Fin 100000) (j : Fin 40), i = ix2 r j := ⟨i 0, i 1, eq_ix2 i⟩
  rw [headArr_ix2]
  exact result_apply x0 x1 x2 x3 x4 x5 x6 x7 x8 x9 r j

end Cert.ReferenceIdeal.Head

end
-- ==== Proof.KernelBody.lean ====
/-
  What the kernel's body stores for one block of 2000 nodes, read at a node `p` of the block and an output column `j`.

  The body loads the block's three feature rows per node, the three 64 × 64 projection matrices with their bias rows,
  and the 192 × 40 output matrix with its bias row; it narrows the matrix operands to bf16 (the identity on exact
  values), multiplies into zero accumulators, adds each bias row broadcast down the block, joins the three 64-column
  results into 192 columns, rectifies, and multiplies once more. Read at `(p, j)` every step is a statement about node
  `p`'s rows only, and the whole is `MixHead.headRow` of those rows.
-/
import proofs.«152419_j61942018342913_1_alg».proof.Proof.Gen.KernelIdeal.Skeleton
import proofs.«152419_j61942018342913_1_alg».proof.Proof.MixHead
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.MixHead

/-! ## The two products: which operand entries meet at a contraction index -/

theorem lhs64_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
theorem lhs64_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem rhs64_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem rhs64_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

theorem lhs192_0 (i : S2000x40.Idx) (q : dot_S2000x192_S192x40_S2000x40_1_0_0_1_n_n.contr.Idx) :
    (dot_S2000x192_S192x40_S2000x40_1_0_0_1_n_n.lhsIdx i q 0).val = (i 0).val := by
  unfold DotDims.lhsIdx
  rw [dif_neg (show ¬(0 : Fin S2000x192.rank) ∈ dot_S2000x192_S192x40_S2000x40_1_0_0_1_n_n.lhsBatch by decide), dif_pos (show (0 : Fin S2000x192.rank) ∈ dot_S2000x192_S192x40_S2000x40_1_0_0_1_n_n.lhsNonContracting by decide)]
  rfl
theorem lhs192_1 (i : S2000x40.Idx) (q : dot_S2000x192_S192x40_S2000x40_1_0_0_1_n_n.contr.Idx) :
    (dot_S2000x192_S192x40_S2000x40_1_0_0_1_n_n.lhsIdx i q 1).val = (q ⟨0, by decide⟩).val :=
  dot_S2000x192_S192x40_S2000x40_1_0_0_1_n_n.lhsIdx_val_of_single rfl i q
theorem rhs192_0 (i : S2000x40.Idx) (q : dot_S2000x192_S192x40_S2000x40_1_0_0_1_n_n.contr.Idx) :
    (dot_S2000x192_S192x40_S2000x40_1_0_0_1_n_n.rhsIdx i q 0).val = (q ⟨0, by decide⟩).val :=
  dot_S2000x192_S192x40_S2000x40_1_0_0_1_n_n.rhsIdx_val_of_single rfl i q
theorem rhs192_1 (i : S2000x40.Idx) (q : dot_S2000x192_S192x40_S2000x40_1_0_0_1_n_n.contr.Idx) :
    (dot_S2000x192_S192x40_S2000x40_1_0_0_1_n_n.rhsIdx i q 1).val = (i 1).val := by
  unfold DotDims.rhsIdx
  rw [dif_neg (show ¬(1 : Fin S192x40.rank) ∈ dot_S2000x192_S192x40_S2000x40_1_0_0_1_n_n.rhsBatch by decide), dif_pos (show (1 : Fin S192x40.rank) ∈ dot_S2000x192_S192x40_S2000x40_1_0_0_1_n_n.rhsNonContracting by decide)]
  rfl

/-- A `2000 × 64` by `64 × 64` product accumulated into zero, read at row `p`, column `c`: the plain sum over the
    contracted axis of the operands' products. -/
theorem mm64_apply (a : FVec Ideal S2000x64 .bf16) (w : FVec Ideal S64x64 .bf16) (p : Fin 2000) (c : Fin 64) :
    matmul dot_S2000x64_S64x64_S2000x64_1_0_0_1_n_n none a w (constant (F := Ideal) S2000x64 .f32 0x00000000#32) (ix2 p c)
      = ∑ q : Fin 64, a (ix2 p q) * w (ix2 q c) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 p c) ((ValueIdx.contrEquiv1 dot_S2000x64_S64x64_S2000x64_1_0_0_1_n_n 64 rfl rfl).symm k) = ix2 p k := funext fun ax => Fin.ext (by
    match ax with
    | ⟨0, _⟩ => exact lhs64_0 _ _
    | ⟨1, _⟩ => exact (lhs64_1 _ _).trans hk)
  have er : dot_S2000x64_S64x64_S2000x64_1_0_0_1_n_n.rhsIdx (ix2 p c) ((ValueIdx.contrEquiv1 dot_S2000x64_S64x64_S2000x64_1_0_0_1_n_n 64 rfl rfl).symm k) = ix2 k c := funext fun ax => Fin.ext (by
    match ax with
    | ⟨0, _⟩ => exact (rhs64_0 _ _).trans hk
    | ⟨1, _⟩ => exact rhs64_1 _ _)
  rw [el, er]

/-- A `2000 × 192` by `192 × 40` product accumulated into zero, read at row `p`, column `c`: the plain sum over the
    contracted axis of the operands' products. -/
theorem mm192_apply (a : FVec Ideal S2000x192 .bf16) (w : FVec Ideal S192x40 .bf16) (p : Fin 2000) (c : Fin 40) :
    matmul dot_S2000x192_S192x40_S2000x40_1_0_0_1_n_n none a w (constant (F := Ideal) S2000x40 .f32 0x00000000#32) (ix2 p c)
      = ∑ q : Fin 192, a (ix2 p q) * w (ix2 q c) := by
  simp only [matmul]
  rw [Ideal.matmul_constant_zero_apply, ← Equiv.sum_comp (ValueIdx.contrEquiv1 dot_S2000x192_S192x40_S2000x40_1_0_0_1_n_n 192 rfl rfl).symm]
  refine Finset.sum_congr rfl fun k _ => ?_
  have hk := ValueIdx.contrEquiv1_symm_val dot_S2000x192_S192x40_S2000x40_1_0_0_1_n_n 192 rfl rfl k
  have el : dot_S2000x192_S192x40_S2000x40_1_0_0_1_n_n.lhsIdx (ix2 p c) ((ValueIdx.contrEquiv1 dot_S2000x192_S192x40_S2000x40_1_0_0_1_n_n 192 rfl rfl).symm k) = ix2 p k := funext fun ax => Fin.ext (by
    match ax with
    | ⟨0, _⟩ => exact lhs192_0 _ _
    | ⟨1, _⟩ => exact (lhs192_1 _ _).trans hk)
  have er : dot_S2000x192_S192x40_S2000x40_1_0_0_1_n_n.rhsIdx (ix2 p c) ((ValueIdx.contrEquiv1 dot_S2000x192_S192x40_S2000x40_1_0_0_1_n_n 192 rfl rfl).symm k) = ix2 k c := funext fun ax => Fin.ext (by
    match ax with
    | ⟨0, _⟩ => exact (rhs192_0 _ _).trans hk
    | ⟨1, _⟩ => exact rhs192_1 _ _)
  rw [el, er]

/-! ## A bias row broadcast down the block -/

/-- The 64-entry bias row, cast to its own shape and broadcast over the block's rows, read at `(p, c)`. -/
theorem bias64_apply (v : Vec Ideal S1x64 .f32) (h1 : S1x64.ShapeCasts S1x64) (h2 : S1x64.Broadcasts S2000x64)
    (p : Fin 2000) (c : Fin 64) :
    broadcastTo S2000x64 (shapeCast S1x64 v h1) h2 (ix2 p c) = v (ix2 (0 : Fin 1) c) := by
  rw [shapeCast_self]
  exact broadcastTo_1b_ab_apply v h2 p c

/-- The 40-entry bias row likewise. -/
theorem bias40_apply (v : Vec Ideal S1x40 .f32) (h1 : S1x40.ShapeCasts S1x40) (h2 : S1x40.Broadcasts S2000x40)
    (p : Fin 2000) (j : Fin 40) :
    broadcastTo S2000x40 (shapeCast S1x40 v h1) h2 (ix2 p j) = v (ix2 (0 : Fin 1) j) := by
  rw [shapeCast_self]
  exact broadcastTo_1b_ab_apply v h2 p j

/-! ## One hop's projection of the block -/

/-- A block of feature rows times a projection matrix (both narrowed, which changes no exact value) into zero, plus the
    bias row: at `(p, c)` it is `MixHead.proj` of node `p`'s row. -/
theorem proj_apply (a : Vec Ideal S2000x64 .f32) (w : Vec Ideal S64x64 .f32) (b : Vec Ideal S1x64 .f32)
    (hb : FTy.bits .bf16 < FTy.bits .f32) (h1 : S1x64.ShapeCasts S1x64) (h2 : S1x64.Broadcasts S2000x64)
    (p : Fin 2000) (c : Fin 64) :
    addf (matmul dot_S2000x64_S64x64_S2000x64_1_0_0_1_n_n none (truncf .bf16 a hb) (truncf .bf16 w hb) (constant (F := Ideal) S2000x64 .f32 0x00000000#32))
        (broadcastTo S2000x64 (shapeCast S1x64 b h1) h2) (ix2 p c)
      = proj (fun q => a (ix2 p q)) (fun q c => w (ix2 q c)) (fun c => b (ix2 (0 : Fin 1) c)) c := by
  rw [addf_apply, mm64_apply, bias64_apply]
  rfl

/-! ## The body's payloads -/

/-- The rectified, joined hidden block at `(p, k)`: node `p`'s hidden row at column `k`, floored at the float zero. -/
theorem hidden_apply (x0 x1 x2 : Vec Ideal S2000x64 .f32) (x3 x5 x7 : Vec Ideal S64x64 .f32) (x4 x6 x8 : Vec Ideal S1x64 .f32)
    (p : Fin 2000) (k : Fin 192) :
    k0_pay2 (F := Ideal) x0 x1 x2 x3 x5 x7 x4 x6 x8 (ix2 p k)
      = max (hidden (fun q => x0 (ix2 p q)) (fun q => x1 (ix2 p q)) (fun q => x2 (ix2 p q))
          (fun q c => x3 (ix2 q c)) (fun q c => x5 (ix2 q c)) (fun q c => x7 (ix2 q c))
          (fun c => x4 (ix2 (0 : Fin 1) c)) (fun c => x6 (ix2 (0 : Fin 1) c)) (fun c => x8 (ix2 (0 : Fin 1) c)) k)
        (Ideal.ofBits .f32 0x00000000#32) := by
  unfold k0_pay2
  rw [truncf_apply, maximumf_apply, cat3_apply]
  unfold Cert.MixHead.hidden
  by_cases e1 : k.val < 64
  · rw [dif_pos e1, dif_pos e1, proj_apply]; rfl
  · rw [dif_neg e1, dif_neg e1]
    by_cases e2 : k.val < 128
    · rw [dif_pos e2, dif_pos e2, shapeCast_self, proj_apply]; rfl
    · rw [dif_neg e2, dif_neg e2, shapeCast_self, proj_apply]; rfl

/-- THE STORED BLOCK at `(p, j)`: the head of node `p`'s three rows, the weights and biases as the block's operands
    hold them (a bias is the one row of its `[1, n]` operand). -/
theorem pay_apply (x0 x1 x2 : Vec Ideal S2000x64 .f32) (x3 x5 x7 : Vec Ideal S64x64 .f32) (x4 x6 x8 : Vec Ideal S1x64 .f32)
    (x9 : Vec Ideal S192x40 .f32) (x10 : Vec Ideal S1x40 .f32) (p : Fin 2000) (j : Fin 40) :
    k0_pay1 (F := Ideal) (k0_pay2 x0 x1 x2 x3 x5 x7 x4 x6 x8) (k0_pay3 x9) x10 (ix2 p j)
      = headRow (Ideal.ofBits .f32 0x00000000#32)
          (fun q => x0 (ix2 p q)) (fun q => x1 (ix2 p q)) (fun q => x2 (ix2 p q))
          (fun q c => x3 (ix2 q c)) (fun q c => x5 (ix2 q c)) (fun q c => x7 (ix2 q c))
          (fun c => x4 (ix2 (0 : Fin 1) c)) (fun c => x6 (ix2 (0 : Fin 1) c)) (fun c => x8 (ix2 (0 : Fin 1) c))
          (fun k j => x9 (ix2 k j)) (fun j => x10 (ix2 (0 : Fin 1) j)) j := by
  unfold k0_pay1
  rw [addf_apply, mm192_apply, bias40_apply]
  unfold headRow
  refine congrArg (· + x10 (ix2 (0 : Fin 1) j)) (Finset.sum_congr rfl fun k _ => ?_)
  rw [hidden_apply]
  rfl

end Cert.KernelIdeal.Body

end
-- ==== Proof.HostArrays.lean ====
/-
  What the kernel's region finds in the arrays the host wrote before it.

  Before the dense head runs, the host program normalises the adjacency (degrees by a scatter-add of ones, their
  inverse square roots, the edge weights as products of the two endpoints' values) and propagates the node features
  through it twice (gather the source rows, scale by the edge weight, scatter-add at the target), and reshapes each
  bias vector into a one-row matrix. These are operation for operation the reference's own first stages, so the two
  propagated arrays are stated as the reference's stage functions of the node features and the edge list, and never
  opened; the reshaped biases are the bias vectors under a cast to `[1, n]`.
-/
import proofs.«152419_j61942018342913_1_alg».proof.Proof.Gen.KernelIdeal.Frame
import proofs.«152419_j61942018342913_1_alg».proof.Proof.RefRead
import Idealize.ShloMosaic.Lib.StableHlo.Run

set_option maxRecDepth 16384

noncomputable section

namespace Cert.KernelIdeal.HostArr

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The bias of hop 0 as a one-row matrix. -/
theorem V_b0 (c : Dev nD) :
    (V m c main_v58 : S1x64.Idx → F .f32) = shapeCast S1x64 (m ((c : Thread nD τ).loc main_arg3) : S64.Idx → F .f32) shapeCasts_S64_S1x64 := by
  dsimp only [V]
  simp only [hostOps0, hostOps0_1, hostOps0_2, List.flatten_cons, List.flatten_nil, List.append_nil, List.cons_append, List.nil_append]
  after_results_simp
  rfl

/-- The bias of hop 1 as a one-row matrix. -/
theorem V_b1 (c : Dev nD) :
    (V m c main_v59 : S1x64.Idx → F .f32) = shapeCast S1x64 (m ((c : Thread nD τ).loc main_arg5) : S64.Idx → F .f32) shapeCasts_S64_S1x64 := by
  dsimp only [V]
  simp only [hostOps0, hostOps0_1, hostOps0_2, List.flatten_cons, List.flatten_nil, List.append_nil, List.cons_append, List.nil_append]
  after_results_simp
  rfl

/-- The bias of hop 2 as a one-row matrix. -/
theorem V_b2 (c : Dev nD) :
    (V m c main_v60 : S1x64.Idx → F .f32) = shapeCast S1x64 (m ((c : Thread nD τ).loc main_arg7) : S64.Idx → F .f32) shapeCasts_S64_S1x64 := by
  dsimp only [V]
  simp only [hostOps0, hostOps0_1, hostOps0_2, List.flatten_cons, List.flatten_nil, List.append_nil, List.cons_append, List.nil_append]
  after_results_simp
  rfl

/-- The output bias as a one-row matrix. -/
theorem V_bl (c : Dev nD) :
    (V m c main_v61 : S1x40.Idx → F .f32) = shapeCast S1x40 (m ((c : Thread nD τ).loc main_arg9) : S40.Idx → F .f32) shapeCasts_S40_S1x40 := by
  dsimp only [V]
  simp only [hostOps0, hostOps0_1, hostOps0_2, List.flatten_cons, List.flatten_nil, List.append_nil, List.cons_append, List.nil_append]
  after_results_simp
  rfl

/-- The node features propagated once: the reference's own stage of the node features and the edge list. -/
theorem V_hop1 (c : Dev nD) :
    (V m c main_v44 : S100000x64.Idx → F .f32)
      = Cert.ReferenceIdeal.ReadP.val_main_v48 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  simp only [TRef.ofBuf, TRef.toBuf, cast_eq]
  rfl

/-- The node features propagated twice: likewise. -/
theorem V_hop2 (c : Dev nD) :
    (V m c main_v57 : S100000x64.Idx → F .f32)
      = Cert.ReferenceIdeal.ReadP.val_main_v65 (F := F) (m ((c : Thread nD τ).loc main_arg0)) (m ((c : Thread nD τ).loc main_arg1)) := by
  dsimp only [V]
  simp only [hostOps0, hostOps0_1, hostOps0_2, List.flatten_cons, List.flatten_nil, List.append_nil, List.cons_append, List.nil_append]
  after_results_simp
  simp only [TRef.ofBuf, TRef.toBuf, cast_eq]
  rfl

end Cert.KernelIdeal.HostArr

end
-- ==== Proof.KernelValue.lean ====
/-
  The kernel's result array after the run, as one function of the argument arrays.

  The grid has 50 points; point `t` stages rows `2000 t … 2000 t + 1999` of the three feature arrays (the node features
  and the two arrays the host propagated before the region) and every weight and bias whole, and writes rows
  `2000 t … 2000 t + 1999` of the result. So what point `t` writes back at local `(p, j)` is the head of node `2000 t + p`,
  which is the whole-array head read through point `t`'s block; the 50 blocks cover the array (row `r` lies in block
  `r / 2000`), hence the array ends holding the whole-array head.
-/
import proofs.«152419_j61942018342913_1_alg».proof.Proof.Gen.KernelIdeal.Value
import proofs.«152419_j61942018342913_1_alg».proof.Proof.KernelBody
import proofs.«152419_j61942018342913_1_alg».proof.Proof.HostArrays
import Idealize.ShloMosaic.Lib.ValueLayout

set_option maxRecDepth 16384

noncomputable section

namespace Cert.KernelIdeal.Head

open Cert.KernelIdeal Cert.KernelIdeal.Gen Idealize.ShloMosaic Idealize.ShloMosaic.TcCoe Idealize.SL.Sem
open Idealize.ShloMosaic.ValueIdx Cert.MixHead
open Idealize.ShloMosaic.Pipeline (Dat)

variable (m : (ℓ : Loc nD τ sig) → Buf (Elt Ideal) ℓ) (ρ : Dev nD → PrngReg)

/-- The once- and twice-propagated node features, as functions of the node features and the edge list. -/
abbrev hop1 (c : Dev nD) : S100000x64.Idx → EReal :=
  Cert.ReferenceIdeal.ReadP.val_main_v48 (F := Ideal) (m ((c : Thread nD τ).loc main_arg0)) (m ((c : Thread nD τ).loc main_arg1))
abbrev hop2 (c : Dev nD) : S100000x64.Idx → EReal :=
  Cert.ReferenceIdeal.ReadP.val_main_v65 (F := Ideal) (m ((c : Thread nD τ).loc main_arg0)) (m ((c : Thread nD τ).loc main_arg1))

/-- THE RESULT: the head of every node's three feature rows. -/
def result (c : Dev nD) : S100000x40.Idx → EReal :=
  headArr (Ideal.ofBits .f32 0x00000000#32) (m ((c : Thread nD τ).loc main_arg0)) (hop1 m c) (hop2 m c)
    (m ((c : Thread nD τ).loc main_arg2)) (m ((c : Thread nD τ).loc main_arg4)) (m ((c : Thread nD τ).loc main_arg6))
    (m ((c : Thread nD τ).loc main_arg3)) (m ((c : Thread nD τ).loc main_arg5)) (m ((c : Thread nD τ).loc main_arg7))
    (m ((c : Thread nD τ).loc main_arg8)) (m ((c : Thread nD τ).loc main_arg9))

theorem hz : (![0, 0] : Fin 2 → Nat) = fun _ => 0 := funext fun a => by fin_cases a <;> rfl

/-- The printed index maps, decided over the 50 grid points: the three feature windows and the result window sit at row
    block `t`, column block 0; every weight and bias window at block (0, 0). -/
theorem idx_facts : ∀ t : Fin cfg0.N,
    win0_11.index t (0 : Fin 2) = t.val ∧ win0_11.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The windows' blocks, read at coordinates off any array -/

/-- Feature window 0's block at point `t`, read off ANY array `A` at local `(p, q)`: row `2000 t + p` of `A`. -/
theorem read0 (t : Fin cfg0.N) (A : S100000x64.Idx → EReal) (p : Fin 2000) (q : Fin 64) (r : Fin 100000)
    (hr : r.val = t.val * 2000 + p.val) :
    ((cfg0.win 0).blk t).view.read (Elt Ideal) A (ix2 p q) = A (ix2 r q) := by
  obtain ⟨eo0, eo1, e00, e01, e10, e11, e20, e21, -⟩ := idx_facts t
  show A (((cfg0.win 0).blk t).view.emb (ix2 p q)) = A (ix2 r q)
  refine congrArg A (funext fun a => Fin.ext ?_)
  match a with
  | ⟨0, _⟩ => show win0_0.index t (0 : Fin 2) * 2000 + 1 * p.val = r.val; omega
  | ⟨1, _⟩ => show win0_0.index t (1 : Fin 2) * 64 + 1 * q.val = q.val; omega

/-- Feature window 1's block at point `t`, read off ANY array `A` at local `(p, q)`: row `2000 t + p` of `A`. -/
theorem read1 (t : Fin cfg0.N) (A : S100000x64.Idx → EReal) (p : Fin 2000) (q : Fin 64) (r : Fin 100000)
    (hr : r.val = t.val * 2000 + p.val) :
    ((cfg0.win 1).blk t).view.read (Elt Ideal) A (ix2 p q) = A (ix2 r q) := by
  obtain ⟨eo0, eo1, e00, e01, e10, e11, e20, e21, -⟩ := idx_facts t
  show A (((cfg0.win 1).blk t).view.emb (ix2 p q)) = A (ix2 r q)
  refine congrArg A (funext fun a => Fin.ext ?_)
  match a with
  | ⟨0, _⟩ => show win0_1.index t (0 : Fin 2) * 2000 + 1 * p.val = r.val; omega
  | ⟨1, _⟩ => show win0_1.index t (1 : Fin 2) * 64 + 1 * q.val = q.val; omega

/-- Feature window 2's block at point `t`, read off ANY array `A` at local `(p, q)`: row `2000 t + p` of `A`. -/
theorem read2 (t : Fin cfg0.N) (A : S100000x64.Idx → EReal) (p : Fin 2000) (q : Fin 64) (r : Fin 100000)
    (hr : r.val = t.val * 2000 + p.val) :
    ((cfg0.win 2).blk t).view.read (Elt Ideal) A (ix2 p q) = A (ix2 r q) := by
  obtain ⟨eo0, eo1, e00, e01, e10, e11, e20, e21, -⟩ := idx_facts t
  show A (((cfg0.win 2).blk t).view.emb (ix2 p q)) = A (ix2 r q)
  refine congrArg A (funext fun a => Fin.ext ?_)
  match a with
  | ⟨0, _⟩ => show win0_2.index t (0 : Fin 2) * 2000 + 1 * p.val = r.val; omega
  | ⟨1, _⟩ => show win0_2.index t (1 : Fin 2) * 64 + 1 * q.val = q.val; omega

/-- Window 3 stages its whole array at every point: its block read off any array `A` is `A`. -/
theorem read3 (t : Fin cfg0.N) (A : S64x64.Idx → EReal) (a : Fin 64) (b : Fin 64) :
    ((cfg0.win 3).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 3).blk t).view.emb (ix2 a b)) = A (ix2 a b)
  refine congrArg A (funext fun ax => Fin.ext ?_)
  match ax with
  | ⟨0, _⟩ => show win0_3.index t (0 : Fin 2) * 64 + 1 * a.val = a.val; omega
  | ⟨1, _⟩ => show win0_3.index t (1 : Fin 2) * 64 + 1 * b.val = b.val; omega

/-- Window 4 stages its whole array at every point: its block read off any array `A` is `A`. -/
theorem read4 (t : Fin cfg0.N) (A : S1x64.Idx → EReal) (a : Fin 1) (b : Fin 64) :
    ((cfg0.win 4).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 4).blk t).view.emb (ix2 a b)) = A (ix2 a b)
  refine congrArg A (funext fun ax => Fin.ext ?_)
  match ax with
  | ⟨0, _⟩ => show win0_4.index t (0 : Fin 2) * 1 + 1 * a.val = a.val; omega
  | ⟨1, _⟩ => show win0_4.index t (1 : Fin 2) * 64 + 1 * b.val = b.val; omega

/-- Window 5 stages its whole array at every point: its block read off any array `A` is `A`. -/
theorem read5 (t : Fin cfg0.N) (A : S64x64.Idx → EReal) (a : Fin 64) (b : Fin 64) :
    ((cfg0.win 5).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 5).blk t).view.emb (ix2 a b)) = A (ix2 a b)
  refine congrArg A (funext fun ax => Fin.ext ?_)
  match ax with
  | ⟨0, _⟩ => show win0_5.index t (0 : Fin 2) * 64 + 1 * a.val = a.val; omega
  | ⟨1, _⟩ => show win0_5.index t (1 : Fin 2) * 64 + 1 * b.val = b.val; omega

/-- Window 6 stages its whole array at every point: its block read off any array `A` is `A`. -/
theorem read6 (t : Fin cfg0.N) (A : S1x64.Idx → EReal) (a : Fin 1) (b : Fin 64) :
    ((cfg0.win 6).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 6).blk t).view.emb (ix2 a b)) = A (ix2 a b)
  refine congrArg A (funext fun ax => Fin.ext ?_)
  match ax with
  | ⟨0, _⟩ => show win0_6.index t (0 : Fin 2) * 1 + 1 * a.val = a.val; omega
  | ⟨1, _⟩ => show win0_6.index t (1 : Fin 2) * 64 + 1 * b.val = b.val; omega

/-- Window 7 stages its whole array at every point: its block read off any array `A` is `A`. -/
theorem read7 (t : Fin cfg0.N) (A : S64x64.Idx → EReal) (a : Fin 64) (b : Fin 64) :
    ((cfg0.win 7).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 7).blk t).view.emb (ix2 a b)) = A (ix2 a b)
  refine congrArg A (funext fun ax => Fin.ext ?_)
  match ax with
  | ⟨0, _⟩ => show win0_7.index t (0 : Fin 2) * 64 + 1 * a.val = a.val; omega
  | ⟨1, _⟩ => show win0_7.index t (1 : Fin 2) * 64 + 1 * b.val = b.val; omega

/-- Window 8 stages its whole array at every point: its block read off any array `A` is `A`. -/
theorem read8 (t : Fin cfg0.N) (A : S1x64.Idx → EReal) (a : Fin 1) (b : Fin 64) :
    ((cfg0.win 8).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 8).blk t).view.emb (ix2 a b)) = A (ix2 a b)
  refine congrArg A (funext fun ax => Fin.ext ?_)
  match ax with
  | ⟨0, _⟩ => show win0_8.index t (0 : Fin 2) * 1 + 1 * a.val = a.val; omega
  | ⟨1, _⟩ => show win0_8.index t (1 : Fin 2) * 64 + 1 * b.val = b.val; omega

/-- Window 9 stages its whole array at every point: its block read off any array `A` is `A`. -/
theorem read9 (t : Fin cfg0.N) (A : S192x40.Idx → EReal) (a : Fin 192) (b : Fin 40) :
    ((cfg0.win 9).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 9).blk t).view.emb (ix2 a b)) = A (ix2 a b)
  refine congrArg A (funext fun ax => Fin.ext ?_)
  match ax with
  | ⟨0, _⟩ => show win0_9.index t (0 : Fin 2) * 192 + 1 * a.val = a.val; omega
  | ⟨1, _⟩ => show win0_9.index t (1 : Fin 2) * 40 + 1 * b.val = b.val; omega

/-- Window 10 stages its whole array at every point: its block read off any array `A` is `A`. -/
theorem read10 (t : Fin cfg0.N) (A : S1x40.Idx → EReal) (a : Fin 1) (b : Fin 40) :
    ((cfg0.win 10).blk t).view.read (Elt Ideal) A (ix2 a b) = A (ix2 a b) := by
  obtain ⟨-, -, -, -, -, -, -, -, e30, e31, e40, e41, e50, e51, e60, e61, e70, e71, e80, e81, e90, e91, e100, e101⟩ := idx_facts t
  show A (((cfg0.win 10).blk t).view.emb (ix2 a b)) = A (ix2 a b)
  refine congrArg A (funext fun ax => Fin.ext ?_)
  match ax with
  | ⟨0, _⟩ => show win0_10.index t (0 : Fin 2) * 1 + 1 * a.val = a.val; omega
  | ⟨1, _⟩ => show win0_10.index t (1 : Fin 2) * 40 + 1 * b.val = b.val; omega

/-! ## What each window's array holds when the region is entered -/

theorem arr0 (c : Dev nD) : V m c (Pipeline.arrRef spec0 0) = (m ((c : Thread nD τ).loc main_arg0)) := V_main_arg0 m c
theorem arr1 (c : Dev nD) : V m c (Pipeline.arrRef spec0 1) = hop1 m c := Cert.KernelIdeal.HostArr.V_hop1 m c
theorem arr2 (c : Dev nD) : V m c (Pipeline.arrRef spec0 2) = hop2 m c := Cert.KernelIdeal.HostArr.V_hop2 m c
theorem arr3 (c : Dev nD) : V m c (Pipeline.arrRef spec0 3) = (m ((c : Thread nD τ).loc main_arg2)) := V_main_arg2 m c
theorem arr4 (c : Dev nD) : V m c (Pipeline.arrRef spec0 4) = shapeCast S1x64 ((m ((c : Thread nD τ).loc main_arg3)) : S64.Idx → EReal) shapeCasts_S64_S1x64 :=
  Cert.KernelIdeal.HostArr.V_b0 m c
theorem arr5 (c : Dev nD) : V m c (Pipeline.arrRef spec0 5) = (m ((c : Thread nD τ).loc main_arg4)) := V_main_arg4 m c
theorem arr6 (c : Dev nD) : V m c (Pipeline.arrRef spec0 6) = shapeCast S1x64 ((m ((c : Thread nD τ).loc main_arg5)) : S64.Idx → EReal) shapeCasts_S64_S1x64 :=
  Cert.KernelIdeal.HostArr.V_b1 m c
theorem arr7 (c : Dev nD) : V m c (Pipeline.arrRef spec0 7) = (m ((c : Thread nD τ).loc main_arg6)) := V_main_arg6 m c
theorem arr8 (c : Dev nD) : V m c (Pipeline.arrRef spec0 8) = shapeCast S1x64 ((m ((c : Thread nD τ).loc main_arg7)) : S64.Idx → EReal) shapeCasts_S64_S1x64 :=
  Cert.KernelIdeal.HostArr.V_b2 m c
theorem arr9 (c : Dev nD) : V m c (Pipeline.arrRef spec0 9) = (m ((c : Thread nD τ).loc main_arg8)) := V_main_arg8 m c
theorem arr10 (c : Dev nD) : V m c (Pipeline.arrRef spec0 10) = shapeCast S1x40 ((m ((c : Thread nD τ).loc main_arg9)) : S40.Idx → EReal) shapeCasts_S40_S1x40 :=
  Cert.KernelIdeal.HostArr.V_bl m c

/-! ## What a point writes back, the cover, and the array after the run -/

/-- `headRow` of equal operands. -/
theorem headRow_congr {z : EReal} {x x' h1 h1' h2 h2' : Fin 64 → EReal} {W0 W0' W1 W1' W2 W2' : Fin 64 → Fin 64 → EReal}
    {b0 b0' b1 b1' b2 b2' : Fin 64 → EReal} {Wl Wl' : Fin 192 → Fin 40 → EReal} {bl bl' : Fin 40 → EReal} (j : Fin 40)
    (ex : x = x') (eh1 : h1 = h1') (eh2 : h2 = h2') (eW0 : W0 = W0') (eW1 : W1 = W1') (eW2 : W2 = W2')
    (eb0 : b0 = b0') (eb1 : b1 = b1') (eb2 : b2 = b2') (eWl : Wl = Wl') (ebl : bl = bl') :
    headRow z x h1 h2 W0 W1 W2 b0 b1 b2 Wl bl j = headRow z x' h1' h2' W0' W1' W2' b0' b1' b2' Wl' bl' j := by
  subst ex eh1 eh2 eW0 eW1 eW2 eb0 eb1 eb2 eWl ebl; rfl

/-- WHAT POINT `t` WRITES BACK is block `t` of the whole-array head. -/
theorem flushed_eq (c : Dev nD) (t : Fin cfg0.N) :
    (dats m 0 c).flushed 11 t = ((cfg0.win 11).blk t).view.read (Elt Ideal) (result m c) := by
  rw [Cert.KernelIdeal.Value.flushed11]
  unfold out0_11
  rw [View.canon_unit_zero hz]
  simp only [View.ld_unit_zero (S := S2000x64) hz, View.ld_unit_zero (S := S64x64) hz, View.ld_unit_zero (S := S1x64) hz,
    View.ld_unit_zero (S := S192x40) hz, View.ld_unit_zero (S := S1x40) hz]
  funext y
  obtain ⟨p, j, rfl⟩ : ∃ (p : Fin 2000) (j : Fin 40), y = ix2 p j := ⟨y 0, y 1, eq_ix2 y⟩
  have ht : t.val < 50 := t.isLt
  obtain ⟨eo0, eo1, -⟩ := idx_facts t
  have hrow : ((cfg0.win 11).blk t).view.emb (ix2 p j) = ix2 (⟨t.val * 2000 + p.val, by have := p.isLt; omega⟩ : Fin 100000) j :=
    funext fun a => Fin.ext (by
      match a with
      | ⟨0, _⟩ => show win0_11.index t (0 : Fin 2) * 2000 + 1 * p.val = t.val * 2000 + p.val; omega
      | ⟨1, _⟩ => show win0_11.index t (1 : Fin 2) * 40 + 1 * j.val = j.val; omega)
  show k0_pay1 (F := Ideal) (k0_pay2 (iblk m c 0 t) (iblk m c 1 t) (iblk m c 2 t) (iblk m c 3 t) (iblk m c 5 t) (iblk m c 7 t) (iblk m c 4 t) (iblk m c 6 t) (iblk m c 8 t)) (k0_pay3 (iblk m c 9 t)) (iblk m c 10 t) (ix2 p j)
      = result m c (((cfg0.win 11).blk t).view.emb (ix2 p j))
  rw [hrow]
  refine (Cert.KernelIdeal.Body.pay_apply (iblk m c 0 t) (iblk m c 1 t) (iblk m c 2 t) (iblk m c 3 t) (iblk m c 5 t) (iblk m c 7 t)
    (iblk m c 4 t) (iblk m c 6 t) (iblk m c 8 t) (iblk m c 9 t) (iblk m c 10 t) p j).trans ?_
  unfold result
  rw [headArr_ix2]
  have g0 : (fun q : Fin 64 => iblk m c 0 t (ix2 p q)) = fun q => (m ((c : Thread nD τ).loc main_arg0)) (ix2 (⟨t.val * 2000 + p.val, by have := p.isLt; omega⟩ : Fin 100000) q) :=
    funext fun q => (read0 t (V m c (Pipeline.arrRef spec0 0)) p q _ rfl).trans (congrFun (arr0 m c) _)
  have g1 : (fun q : Fin 64 => iblk m c 1 t (ix2 p q)) = fun q => hop1 m c (ix2 (⟨t.val * 2000 + p.val, by have := p.isLt; omega⟩ : Fin 100000) q) :=
    funext fun q => (read1 t (V m c (Pipeline.arrRef spec0 1)) p q _ rfl).trans (congrFun (arr1 m c) _)
  have g2 : (fun q : Fin 64 => iblk m c 2 t (ix2 p q)) = fun q => hop2 m c (ix2 (⟨t.val * 2000 + p.val, by have := p.isLt; omega⟩ : Fin 100000) q) :=
    funext fun q => (read2 t (V m c (Pipeline.arrRef spec0 2)) p q _ rfl).trans (congrFun (arr2 m c) _)
  have g3 : (fun (q c' : Fin 64) => iblk m c 3 t (ix2 q c')) = fun q c' => (m ((c : Thread nD τ).loc main_arg2)) (ix2 q c') :=
    funext fun q => funext fun c' => (read3 t (V m c (Pipeline.arrRef spec0 3)) q c').trans (congrFun (arr3 m c) _)
  have g5 : (fun (q c' : Fin 64) => iblk m c 5 t (ix2 q c')) = fun q c' => (m ((c : Thread nD τ).loc main_arg4)) (ix2 q c') :=
    funext fun q => funext fun c' => (read5 t (V m c (Pipeline.arrRef spec0 5)) q c').trans (congrFun (arr5 m c) _)
  have g7 : (fun (q c' : Fin 64) => iblk m c 7 t (ix2 q c')) = fun q c' => (m ((c : Thread nD τ).loc main_arg6)) (ix2 q c') :=
    funext fun q => funext fun c' => (read7 t (V m c (Pipeline.arrRef spec0 7)) q c').trans (congrFun (arr7 m c) _)
  have g4 : (fun c' : Fin 64 => iblk m c 4 t (ix2 (0 : Fin 1) c')) = fun c' => (m ((c : Thread nD τ).loc main_arg3)) (ix1 c') :=
    funext fun c' => ((read4 t (V m c (Pipeline.arrRef spec0 4)) 0 c').trans (congrFun (arr4 m c) _)).trans (shapeCast_a_1a_apply _ _ 0 c')
  have g6 : (fun c' : Fin 64 => iblk m c 6 t (ix2 (0 : Fin 1) c')) = fun c' => (m ((c : Thread nD τ).loc main_arg5)) (ix1 c') :=
    funext fun c' => ((read6 t (V m c (Pipeline.arrRef spec0 6)) 0 c').trans (congrFun (arr6 m c) _)).trans (shapeCast_a_1a_apply _ _ 0 c')
  have g8 : (fun c' : Fin 64 => iblk m c 8 t (ix2 (0 : Fin 1) c')) = fun c' => (m ((c : Thread nD τ).loc main_arg7)) (ix1 c') :=
    funext fun c' => ((read8 t (V m c (Pipeline.arrRef spec0 8)) 0 c').trans (congrFun (arr8 m c) _)).trans (shapeCast_a_1a_apply _ _ 0 c')
  have g9 : (fun (k : Fin 192) (j' : Fin 40) => iblk m c 9 t (ix2 k j')) = fun k j' => (m ((c : Thread nD τ).loc main_arg8)) (ix2 k j') :=
    funext fun k => funext fun j' => (read9 t (V m c (Pipeline.arrRef spec0 9)) k j').trans (congrFun (arr9 m c) _)
  have g10 : (fun j' : Fin 40 => iblk m c 10 t (ix2 (0 : Fin 1) j')) = fun j' => (m ((c : Thread nD τ).loc main_arg9)) (ix1 j') :=
    funext fun j' => ((read10 t (V m c (Pipeline.arrRef spec0 10)) 0 j').trans (congrFun (arr10 m c) _)).trans (shapeCast_a_1a_apply _ _ 0 j')
  exact headRow_congr j g0 g1 g2 g3 g5 g7 g4 g6 g8 g9 g10

/-- An index of the result array is in point `t`'s block iff each coordinate is in the block's range on its axis. -/
theorem mem_blk (t : Fin cfg0.N) (i : S100000x40.Idx) :
    i ∈ ((cfg0.win 11).blk t).view.set ↔ ∀ a : Fin 2, win0_11.index t a * S2000x40.size a ≤ (i a).val ∧ (i a).val < win0_11.index t a * S2000x40.size a + S2000x40.size a := by
  show i ∈ ((View.whole main_v62).slice (win0_11.rect t)).set ↔ _
  rw [View.set_slice_whole, Rect.mem_set_unit]
  exact Iff.rfl

/-- The 50 blocks cover the result array: row `r` lies in the block of point `r / 2000`. -/
theorem cover (i : S100000x40.Idx) : ∃ t : Fin cfg0.N, (cfg0.win 11).flush t = true ∧ i ∈ ((cfg0.win 11).blk t).view.set := by
  have hi0 : (i 0).val < 100000 := (i 0).isLt
  have hi1 : (i 1).val < 40 := (i 1).isLt
  have hlt : (i 0).val / 2000 < 50 := by omega
  refine ⟨⟨(i 0).val / 2000, hlt⟩, flush0_11 _, ?_⟩
  rw [mem_blk]
  obtain ⟨eo0, eo1, -⟩ := idx_facts ⟨(i 0).val / 2000, hlt⟩
  have eo0' : win0_11.index ⟨(i 0).val / 2000, hlt⟩ (0 : Fin 2) = (i 0).val / 2000 := eo0
  intro a
  match a with
  | ⟨0, _⟩ =>
    show win0_11.index ⟨(i 0).val / 2000, hlt⟩ (0 : Fin 2) * 2000 ≤ (i 0).val ∧ (i 0).val < win0_11.index ⟨(i 0).val / 2000, hlt⟩ (0 : Fin 2) * 2000 + 2000
    omega
  | ⟨1, _⟩ =>
    show win0_11.index ⟨(i 0).val / 2000, hlt⟩ (1 : Fin 2) * 40 ≤ (i 1).val ∧ (i 1).val < win0_11.index ⟨(i 0).val / 2000, hlt⟩ (1 : Fin 2) * 40 + 40
    omega

/-- THE RESULT ARRAY after the run is the whole-array head. -/
theorem final (c : Dev nD) : (dats m 0 c).arrAt 11 cfg0.N = result m c :=
  (dats m 0 c).arrAt_eq_of_cover 11 (result m c) (fun t _ => flushed_eq m c t) cover

end Cert.KernelIdeal.Head

end
-- ==== Proof.lean ====
/-
  A three-hop graph mixing layer over 100000 nodes and 1.6 million edges (plus one self loop per node), against its
  plain reference.

  Both programs first normalise the adjacency on the host — each node's degree is a scatter-add of ones over the edges'
  targets, `dinv` its inverse square root where the degree is positive, an edge's weight `dinv[source] · dinv[target]` —
  and propagate the node features through it twice: gather the sources' rows, scale by the edge weights, scatter-add
  at the targets. These stages are the same operations of the same inputs in both programs and are carried as two
  unopened arrays `hop1`, `hop2`.

  The dense head is where the programs differ in form. The reference multiplies each of the three 100000 × 64 arrays
  by its 64 × 64 matrix, adds its bias, joins the results into 192 columns, rectifies, multiplies by the 192 × 40 output
  matrix and adds the output bias, all on whole arrays. The kernel does the same for 2000 nodes at a time on a grid of
  50 points, with its matrix operands narrowed to bf16 and accumulated into zero. On exact values narrowing is the
  identity, a product is the sum over the contracted axis of the operands' products, and every step of the head reads
  only a node's own rows; so both results are, node by node and column by column, `MixHead.headRow` of the node's three
  rows. No law beyond the commutativity of a finite sum is used, and the inputs' finiteness is never needed.
-/
import proofs.«152419_j61942018342913_1_alg».proof.Defs
import proofs.«152419_j61942018342913_1_alg».proof.Proof.Gen.Kernel
import proofs.«152419_j61942018342913_1_alg».proof.Proof.Gen.Kernel.Skeleton
import proofs.«152419_j61942018342913_1_alg».proof.Proof.Gen.Kernel.Launch
import proofs.«152419_j61942018342913_1_alg».proof.Proof.Gen.Kernel.Points
import proofs.«152419_j61942018342913_1_alg».proof.Proof.Gen.Kernel.Frame
import proofs.«152419_j61942018342913_1_alg».proof.Proof.Gen.KernelIdeal
import proofs.«152419_j61942018342913_1_alg».proof.Proof.Gen.KernelIdeal.Skeleton
import proofs.«152419_j61942018342913_1_alg».proof.Proof.Gen.KernelIdeal.Launch
import proofs.«152419_j61942018342913_1_alg».proof.Proof.Gen.KernelIdeal.Points
import proofs.«152419_j61942018342913_1_alg».proof.Proof.Gen.KernelIdeal.Frame
import proofs.«152419_j61942018342913_1_alg».proof.Proof.Gen.ReferenceIdeal
import proofs.«152419_j61942018342913_1_alg».proof.Proof.Gen.Pre_finite_inputs
import proofs.«152419_j61942018342913_1_alg».proof.Proof.Gen.KernelIdeal.Value
import proofs.«152419_j61942018342913_1_alg».proof.Proof.RefRun
import proofs.«152419_j61942018342913_1_alg».proof.Proof.RefRead
import proofs.«152419_j61942018342913_1_alg».proof.Proof.RefHead
import proofs.«152419_j61942018342913_1_alg».proof.Proof.KernelValue
import Idealize.ShloMosaic.Adequacy
import Idealize.ShloMosaic.Init

noncomputable section

namespace Cert.Proof

open Idealize.ShloMosaic Idealize.SL.Sem Cert.Kernel

/-- The reference has no kernel: its frame is its run with the result dropped. -/
theorem frame_ref : Cert.frame_ReferenceIdeal := fun m ρ _ =>
  (θ_run Cert.ReferenceIdeal.defs _ _).mono (fun _ h c => (h c).2) (Cert.ReferenceIdeal.ValueP.run (F := Ideal) m ρ)

/-- On exact values the kernel's result array (the whole-array head of its arguments and the two arrays its host
    stretch propagated) and the reference's (the same head of its own arguments and stages) are one function of
    arguments that agree. -/
theorem algebraic : Cert.algebraic_KernelIdeal_ReferenceIdeal := by
  intro m ρ m' ρ' _ hagree
  refine ⟨fun c => Cert.KernelIdeal.Head.result m c,
    (θ_run Cert.KernelIdeal.defs _ _).mono (fun r h c => ⟨(h c).1.trans (Cert.KernelIdeal.Head.final m c), (h c).2⟩)
      (Cert.KernelIdeal.Value.run_blocks (F := Ideal) m ρ), ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9⟩ := hagree c
  rw [Cert.ReferenceIdeal.ReadP.val_main_v75_eq, a0, a1, a2, a3, a4, a5, a6, a7, a8, a9]
  exact Cert.ReferenceIdeal.Head.result_eq _ _ _ _ _ _ _ _ _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
